-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S1 : Shape := ⟨1, ![1]⟩
abbrev S40 : Shape := ⟨1, ![40]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S32x3x512x512 .f32) (main_arg1 : FVec F S1 .f32) (main_arg2 : IVec S40 32) (main_arg3 : IVec S40 32) (main_arg4 : IVec S40 32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S32x3x512x512 : Shape := ⟨4, ![32, 3, 512, 512]⟩
abbrev S1 : Shape := ⟨1, ![1]⟩
abbrev S40 : Shape := ⟨1, ![40]⟩
abbrev S_ : Shape := ⟨0, ![]⟩
abbrev S512 : Shape := ⟨1, ![512]⟩
abbrev S1x512 : Shape := ⟨2, ![1, 512]⟩
abbrev S40x1 : Shape := ⟨2, ![40, 1]⟩
abbrev S40x512 : Shape := ⟨2, ![40, 512]⟩
abbrev S512x512 : Shape := ⟨2, ![512, 512]⟩
abbrev S1x3x512x512 : Shape := ⟨4, ![1, 3, 512, 512]⟩
abbrev S1x1x512x512 : Shape := ⟨4, ![1, 1, 512, 512]⟩

abbrev nBuf : Space → Nat
  | .hbm => 50
  | .vmem => 5
  | .smem => 0
  | _ => 0

abbrev bufTy : (tb : Table) → Fin (tcTables nBuf tb) → BufTy
  | .hbm, ⟨0, _⟩ => ⟨S32x3x512x512, .f32⟩
  | .hbm, ⟨1, _⟩ => ⟨S1, .f32⟩
  | .hbm, ⟨2, _⟩ => ⟨S40, .i32⟩
  | .hbm, ⟨3, _⟩ => ⟨S40, .i32⟩
  | .hbm, ⟨4, _⟩ => ⟨S40, .i32⟩
  | .hbm, ⟨5, _⟩ => ⟨S_, .f32⟩
  | .hbm, ⟨6, _⟩ => ⟨S_, .i32⟩
  | .hbm, ⟨7, _⟩ => ⟨S40, .i32⟩
  | .hbm, ⟨8, _⟩ => ⟨S40, .i32⟩
  | .hbm, ⟨9, _⟩ => ⟨S512, .i32⟩
  | .hbm, ⟨10, _⟩ => ⟨S512, .i32⟩
  | .hbm, ⟨11, _⟩ => ⟨S1x512, .i32⟩
  | .hbm, ⟨12, _⟩ => ⟨S40x1, .i32⟩
  | .hbm, ⟨13, _⟩ => ⟨S40x512, .i32⟩
  | .hbm, ⟨14, _⟩ => ⟨S40x512, .i32⟩
  | .hbm, ⟨15, _⟩ => ⟨S40x512, .i1⟩
  | .hbm, ⟨16, _⟩ => ⟨S1x512, .i32⟩
  | .hbm, ⟨17, _⟩ => ⟨S40x1, .i32⟩
  | .hbm, ⟨18, _⟩ => ⟨S40x512, .i32⟩
  | .hbm, ⟨19, _⟩ => ⟨S40x512, .i32⟩
  | .hbm, ⟨20, _⟩ => ⟨S40x512, .i1⟩
  | .hbm, ⟨21, _⟩ => ⟨S40x512, .i1⟩
  | .hbm, ⟨22, _⟩ => ⟨S_, .i32⟩
  | .hbm, ⟨23, _⟩ => ⟨S40, .i32⟩
  | .hbm, ⟨24, _⟩ => ⟨S40, .i32⟩
  | .hbm, ⟨25, _⟩ => ⟨S_, .i32⟩
  | .hbm, ⟨26, _⟩ => ⟨S40, .i32⟩
  | .hbm, ⟨27, _⟩ => ⟨S40, .i32⟩
  | .hbm, ⟨28, _⟩ => ⟨S1x512, .i32⟩
  | .hbm, ⟨29, _⟩ => ⟨S40x1, .i32⟩
  | .hbm, ⟨30, _⟩ => ⟨S40x512, .i32⟩
  | .hbm, ⟨31, _⟩ => ⟨S40x512, .i32⟩
  | .hbm, ⟨32, _⟩ => ⟨S40x512, .i1⟩
  | .hbm, ⟨33, _⟩ => ⟨S1x512, .i32⟩
  | .hbm, ⟨34, _⟩ => ⟨S_, .i32⟩
  | .hbm, ⟨35, _⟩ => ⟨S40, .i32⟩
  | .hbm, ⟨36, _⟩ => ⟨S40, .i32⟩
  | .hbm, ⟨37, _⟩ => ⟨S40x1, .i32⟩
  | .hbm, ⟨38, _⟩ => ⟨S40x512, .i32⟩
  | .hbm, ⟨39, _⟩ => ⟨S40x512, .i32⟩
  | .hbm, ⟨40, _⟩ => ⟨S40x512, .i1⟩
  | .hbm, ⟨41, _⟩ => ⟨S40x512, .i1⟩
  | .hbm, ⟨42, _⟩ => ⟨S40x512, .f32⟩
  | .hbm, ⟨43, _⟩ => ⟨S40x512, .f32⟩
  | .hbm, ⟨44, _⟩ => ⟨S512x512, .f32⟩
  | .hbm, ⟨45, _⟩ => ⟨S_, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S32x3x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S512x512, .f32⟩
  | .local _ .vmem, ⟨3, _⟩ => ⟨S1x3x512x512, .f32⟩
  | .local _ .vmem, ⟨4, _⟩ => ⟨S1x3x512x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1_S_ : S1.ShapeCasts S_
  bcast_S_S40 : S_.BroadcastsInDim S40 (![] : Fin 0 → Fin S40.rank)
  bcast_S512_S1x512_1 : S512.BroadcastsInDim S1x512 (![1] : Fin 1 → Fin S1x512.rank)
  bcast_S40_S40x1_0 : S40.BroadcastsInDim S40x1 (![0] : Fin 1 → Fin S40x1.rank)
  bcast_S1x512_S40x512_0_1 : S1x512.BroadcastsInDim S40x512 (![0, 1] : Fin 2 → Fin S40x512.rank)
  bcast_S40x1_S40x512_0_1 : S40x1.BroadcastsInDim S40x512 (![0, 1] : Fin 2 → Fin S40x512.rank)
  bcast_S_S512x512 : S_.BroadcastsInDim S512x512 (![] : Fin 0 → Fin S512x512.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S512x512_S1x1x512x512 : S512x512.ShapeCasts S1x1x512x512
  shapeCasts_S1x1x512x512_S1x1x512x512 : S1x1x512x512.ShapeCasts S1x1x512x512
  broadcasts_S1x1x512x512_S1x3x512x512 : S1x1x512x512.Broadcasts S1x3x512x512
  dot_S40x512_S40x512_S512x512_0_0_1_1_n_n_wf : DotDims.WF S40x512 S40x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S32x3x512x512.size a
  hwx0_0 : ∀ i : grid0.Coords, EltTy.bits .f32 = 32 ∨ (Rect.block (s := S32x3x512x512) S1x3x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S32x3x512x512.size a
  hwx0_2 : ∀ i : grid0.Coords, EltTy.bits .f32 = 32 ∨ (Rect.block (s := S32x3x512x512) S1x3x512x512.size (cc0_transform_2 i) (hinb0_2 i)).WholeWords (EltTy.packing .f32)

variable [Facts₀]

def dot_S40x512_S40x512_S512x512_0_0_1_1_n_n : DotDims S40x512 S40x512 S512x512 where
  lhsContracting := [0]
  rhsContracting := [0]
  lhsNonContracting := [1]
  rhsNonContracting := [1]
  lhsBatch := []
  rhsBatch := []
  wf := dot_S40x512_S40x512_S512x512_0_0_1_1_n_n_wf

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x3x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S1 : Shape := ⟨1, ![1]⟩
abbrev S40 : Shape := ⟨1, ![40]⟩
abbrev S_ : Shape := ⟨0, ![]⟩
abbrev S512 : Shape := ⟨1, ![512]⟩
abbrev S1x512 : Shape := ⟨2, ![1, 512]⟩
abbrev S40x1 : Shape := ⟨2, ![40, 1]⟩
abbrev S40x512 : Shape := ⟨2, ![40, 512]⟩
abbrev S512x512 : Shape := ⟨2, ![512, 512]⟩
abbrev S1x1x512x512 : Shape := ⟨4, ![1, 1, 512, 512]⟩

abbrev nBuf : Space → Nat
  | .hbm => 66
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S1, .f32⟩
  | .hbm, ⟨2, _⟩ => ⟨S40, .i32⟩
  | .hbm, ⟨3, _⟩ => ⟨S40, .i32⟩
  | .hbm, ⟨4, _⟩ => ⟨S40, .i32⟩
  | .hbm, ⟨5, _⟩ => ⟨S_, .f32⟩
  | .hbm, ⟨6, _⟩ => ⟨S_, .i32⟩
  | .hbm, ⟨7, _⟩ => ⟨S40, .i32⟩
  | .hbm, ⟨8, _⟩ => ⟨S40, .i32⟩
  | .hbm, ⟨9, _⟩ => ⟨S512, .i32⟩
  | .hbm, ⟨10, _⟩ => ⟨S512, .i32⟩
  | .hbm, ⟨11, _⟩ => ⟨S1x512, .i32⟩
  | .hbm, ⟨12, _⟩ => ⟨S40x1, .i32⟩
  | .hbm, ⟨13, _⟩ => ⟨S40x512, .i32⟩
  | .hbm, ⟨14, _⟩ => ⟨S40x512, .i32⟩
  | .hbm, ⟨15, _⟩ => ⟨S40x512, .i1⟩
  | .hbm, ⟨16, _⟩ => ⟨S1x512, .i32⟩
  | .hbm, ⟨17, _⟩ => ⟨S40x1, .i32⟩
  | .hbm, ⟨18, _⟩ => ⟨S40x512, .i32⟩
  | .hbm, ⟨19, _⟩ => ⟨S40x512, .i32⟩
  | .hbm, ⟨20, _⟩ => ⟨S40x512, .i1⟩
  | .hbm, ⟨21, _⟩ => ⟨S40x512, .i1⟩
  | .hbm, ⟨22, _⟩ => ⟨S_, .i32⟩
  | .hbm, ⟨23, _⟩ => ⟨S40, .i32⟩
  | .hbm, ⟨24, _⟩ => ⟨S40, .i32⟩
  | .hbm, ⟨25, _⟩ => ⟨S_, .i32⟩
  | .hbm, ⟨26, _⟩ => ⟨S40, .i32⟩
  | .hbm, ⟨27, _⟩ => ⟨S40, .i32⟩
  | .hbm, ⟨28, _⟩ => ⟨S1x512, .i32⟩
  | .hbm, ⟨29, _⟩ => ⟨S40x1, .i32⟩
  | .hbm, ⟨30, _⟩ => ⟨S40x512, .i32⟩
  | .hbm, ⟨31, _⟩ => ⟨S40x512, .i32⟩
  | .hbm, ⟨32, _⟩ => ⟨S40x512, .i1⟩
  | .hbm, ⟨33, _⟩ => ⟨S1x512, .i32⟩
  | .hbm, ⟨34, _⟩ => ⟨S_, .i32⟩
  | .hbm, ⟨35, _⟩ => ⟨S40, .i32⟩
  | .hbm, ⟨36, _⟩ => ⟨S40, .i32⟩
  | .hbm, ⟨37, _⟩ => ⟨S40x1, .i32⟩
  | .hbm, ⟨38, _⟩ => ⟨S40x512, .i32⟩
  | .hbm, ⟨39, _⟩ => ⟨S40x512, .i32⟩
  | .hbm, ⟨40, _⟩ => ⟨S40x512, .i1⟩
  | .hbm, ⟨41, _⟩ => ⟨S40x512, .i1⟩
  | .hbm, ⟨42, _⟩ => ⟨S40x512, .f32⟩
  | .hbm, ⟨43, _⟩ => ⟨S40x512, .f32⟩
  | .hbm, ⟨44, _⟩ => ⟨S512x512, .f32⟩
  | .hbm, ⟨45, _⟩ => ⟨S_, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S1x1x512x512, .f32⟩
  | .hbm, ⟨50, _⟩ => ⟨S32x3x512x512, .f32⟩
  | .hbm, ⟨51, _⟩ => ⟨S32x3x512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S1x1x512x512, .f32⟩
  | .hbm, ⟨56, _⟩ => ⟨S32x3x512x512, .f32⟩
  | .hbm, ⟨57, _⟩ => ⟨S32x3x512x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S32x3x512x512, .f32⟩
  | .hbm, ⟨62, _⟩ => ⟨S32x3x512x512, .f32⟩
  | .hbm, ⟨63, _⟩ => ⟨S_, .f32⟩
  | .hbm, ⟨64, _⟩ => ⟨S32x3x512x512, .f32⟩
  | .hbm, ⟨65, _⟩ => ⟨S32x3x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  shapeCasts_S1_S_ : S1.ShapeCasts S_
  bcast_S_S40 : S_.BroadcastsInDim S40 (![] : Fin 0 → Fin S40.rank)
  bcast_S512_S1x512_1 : S512.BroadcastsInDim S1x512 (![1] : Fin 1 → Fin S1x512.rank)
  bcast_S40_S40x1_0 : S40.BroadcastsInDim S40x1 (![0] : Fin 1 → Fin S40x1.rank)
  bcast_S1x512_S40x512_0_1 : S1x512.BroadcastsInDim S40x512 (![0, 1] : Fin 2 → Fin S40x512.rank)
  bcast_S40x1_S40x512_0_1 : S40x1.BroadcastsInDim S40x512 (![0, 1] : Fin 2 → Fin S40x512.rank)
  bcast_S_S512x512 : S_.BroadcastsInDim S512x512 (![] : Fin 0 → Fin S512x512.rank)
  bcast_S512x512_S1x1x512x512_2_3 : S512x512.BroadcastsInDim S1x1x512x512 (![2, 3] : Fin 2 → Fin S1x1x512x512.rank)
  bcast_S1x1x512x512_S32x3x512x512_0_1_2_3 : S1x1x512x512.BroadcastsInDim S32x3x512x512 (![0, 1, 2, 3] : Fin 4 → Fin S32x3x512x512.rank)
  bcast_S_S32x3x512x512 : S_.BroadcastsInDim S32x3x512x512 (![] : Fin 0 → Fin S32x3x512x512.rank)
  dot_S40x512_S40x512_S512x512_0_0_1_1_n_n_wf : DotDims.WF S40x512 S40x512 S512x512 [0] [0] [1] [1] [] []

variable [Facts₀]

def dot_S40x512_S40x512_S512x512_0_0_1_1_n_n : DotDims S40x512 S40x512 S512x512 where
  lhsContracting := [0]
  rhsContracting := [0]
  lhsNonContracting := [1]
  rhsNonContracting := [1]
  lhsBatch := []
  rhsBatch := []
  wf := dot_S40x512_S40x512_S512x512_0_0_1_1_n_n_wf

class Facts : Prop extends Facts₀ where

variable [Facts]
-- ==== Proof.Blend.lean ====
/-
  Rain streaks over a batch of images: the blend, as one function of the images and the blend factor.

  A streak of opacity a sends a pixel value v to v·(1 − a) + a. Laying k streaks over the same pixel, in any
  order, sends v to v·f + (1 − f) with f = (1 − a)^k: so all that the images need of the forty streaks is the
  FACTOR MAP f over the 512 × 512 pixel grid. With that map given, the result at image b, channel c, row h,
  column w is

      clamp to [0, 1] of  x[b, c, h, w] · f[h, w] + (1 − f[h, w]),

  the same factor for every image and every channel. This file states that function on the extended reals,
  for a stack of images of any two leading extents (the whole batch, 32 × 3, and one image of it, 1 × 3), and
  the one fact that relates the two: an image of the batch, blended, is that image of the blended batch.

  Nothing here is evaluated: the words for 1 and 0 stay as they are printed on both sides.
-/
import Idealize.ShloMosaic.PureOps.Ideal
import Idealize.ShloMosaic.Lib.ValueIdx

noncomputable section

namespace Cert.Streaks

open Idealize.ShloMosaic Idealize.ShloMosaic.ValueIdx

/-- The pixel grid. -/
abbrev Grid : Shape := ⟨2, ![512, 512]⟩

/-- `n0 × n1` planes over the pixel grid: a batch of `n0` images of `n1` channels each. -/
abbrev Stack (n0 n1 : Nat) : Shape := ⟨4, ![n0, n1, 512, 512]⟩

/-- The float 1.0 and the float 0.0, as the extended reals their words denote. -/
abbrev one : EReal := Ideal.ofBits .f32 0x3F800000#32
abbrev zero : EReal := Ideal.ofBits .f32 0x00000000#32

/-- One pixel value `v` under the factor `f`: `v · f + (1 − f)`, clamped below by 0 and then above by 1. -/
def blendAt (v f : EReal) : EReal := min one (max zero (v * f + (one - f)))

/-- The pixel under an entry of a stack: its last two coordinates. -/
abbrev pixel {n0 n1 : Nat} (i : (Stack n0 n1).Idx) : Grid.Idx := ix2 (i 2) (i 3)

/-- The blend of a stack of images under a factor map: every entry under the factor of ITS pixel. -/
def blend {n0 n1 : Nat} (x : (Stack n0 n1).Idx → EReal) (f : Grid.Idx → EReal) : (Stack n0 n1).Idx → EReal :=
  fun i => blendAt (x i) (f (pixel i))

theorem blend_apply {n0 n1 : Nat} (x : (Stack n0 n1).Idx → EReal) (f : Grid.Idx → EReal) (i : (Stack n0 n1).Idx) :
    blend x f i = min one (max zero (x i * f (ix2 (i 2) (i 3)) + (one - f (ix2 (i 2) (i 3))))) := rfl

end Cert.Streaks

end
-- ==== Proof.Factor.lean ====
/-
  The factor map is computed the same way on both sides.

  Neither program hands the overlap count to the blend ready-made: each builds it from the streaks before it
  touches the images. Streak n covers the rows y0[n] ≤ h < y1_off[n] + 256 and the (at most two) columns
  max(xc[n] − 1, 0) ≤ w < xc[n] + 1; the count K[h, w] is the sum over n of (row n covers h) · (column n covers
  w), a product of two 0/1 masks contracted over the forty streaks; and the factor is f[h, w] = (1 − a)^K[h, w]
  with a the one opacity. The program with the kernel does this in the operations that precede its one region,
  and the region's second window is the array they leave; the reference does it in its first forty-four
  operations, and then goes on to blend. The two lists of operations are the same list, so the array the region
  finds is, as a function of the opacity and the three streak tables, the reference's stage of that name —
  which is all that is proved here: the factor is never opened, and nothing about powers or masks is used.
-/
import proofs.«105950_j16106127360108_1_alg».proof.Proof.Gen.KernelIdeal.Frame
import proofs.«105950_j16106127360108_1_alg».proof.Proof.Gen.ReferenceIdeal.Read
import Idealize.ShloMosaic.Lib.StableHlo.Run
import proofs.«105950_j16106127360108_1_alg».proof.Proof.Blend

noncomputable section

namespace Cert.Streaks

open Idealize.ShloMosaic Idealize.ShloMosaic.TcCoe Idealize.SL.Sem Idealize.ShloMosaic.StableHlo

/-- The reference's factor map, of the opacity and the streak tables (columns, tops, bottoms' offsets). -/
abbrev factor (a : Cert.ReferenceIdeal.S1.Idx → EReal) (xc y0 y1off : Cert.ReferenceIdeal.S40.Idx → BitVec 32) : Grid.Idx → EReal :=
  Cert.ReferenceIdeal.Read.val_main_v38 (F := Ideal) a xc y0 y1off

/-- When the region is entered, its second window's array holds the reference's factor map of the arguments the
    program was launched with. -/
theorem factor_found (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v38 : Grid.Idx → EReal)
      = factor (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  dsimp only [Cert.KernelIdeal.Gen.V, Cert.KernelIdeal.Gen.hostOps0]
  after_results_simp
  rfl

end Cert.Streaks

end
-- ==== Proof.KernelBlend.lean ====
/-
  The kernel's result is the blend of the images under the factor map its region finds.

  The region runs 32 times, once per image of the batch. Run t is handed image t — the block [t, 0..3, all rows,
  all columns] of the batch — and the WHOLE factor map (the same block every time: its index map ignores t), and
  writes block t of the result. Its body is the specification's expression, entry by entry, of the image and of
  the factor map lifted to the image's axes; so what run t writes back is the blend of image t under the factor
  map, which is image t of the blend of the whole batch (an entry's factor depends on its pixel only, and a
  block keeps the pixel coordinates of its entries). The 32 images are the whole batch: entry [b, c, h, w] lies
  in block b. Hence the result array, after the run, is the blend of the batch.
-/
import proofs.«105950_j16106127360108_1_alg».proof.Proof.Gen.KernelIdeal.Value
import proofs.«105950_j16106127360108_1_alg».proof.Proof.Blend

noncomputable section

namespace Cert.Streaks

open Cert.KernelIdeal Cert.KernelIdeal.Gen Cert.KernelIdeal.Value
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin4 : (![0, 0, 0, 0] : Fin 4 → Nat) = fun _ => 0 := funext fun a => by fin_cases a <;> rfl

/-! ## One run of the body -/

/-- What the body leaves in the output block, of the image block `x` and the factor block `f` it was handed: their
    blend. (The body's stores read as one entry-by-entry expression is the generated `canon2_eq`; left here: a
    load of a whole block is the block, and the expression's three reading positions are the entry itself and,
    twice, its pixel.) -/
theorem body_is_blend (x : Vec Ideal S1x3x512x512 .f32) (f : Vec Ideal S512x512 .f32) :
    out0_2 x f = blend (n0 := 1) (n1 := 3) x f := by
  funext y
  unfold out0_2
  refine (canon2_eq (F := Ideal) (View.ld x r0_1) (View.ld f r0_0) y).trans ?_
  rw [View.ld_unit_zero (S := S1x3x512x512) origin4, View.ld_unit_zero (S := S512x512) origin2]
  have hy0 : (y 0).val < 1 := (y 0).isLt
  have e0 : ix2_0 y = y := funext fun a => Fin.ext (by
    match a with
    | ⟨0, _⟩ => show 0 = (y 0).val; omega
    | ⟨1, _⟩ => rfl
    | ⟨2, _⟩ => rfl
    | ⟨3, _⟩ => rfl)
  have e1 : ix2_1 y = pixel (n0 := 1) (n1 := 3) y := funext fun a => Fin.ext (by
    match a with
    | ⟨0, _⟩ => rfl
    | ⟨1, _⟩ => rfl)
  have e2 : ix2_2 y = pixel (n0 := 1) (n1 := 3) y := funext fun a => Fin.ext (by
    match a with
    | ⟨0, _⟩ => rfl
    | ⟨1, _⟩ => rfl)
  have at_positions : ∀ (p : S1x3x512x512.Idx) (q r : S512x512.Idx), p = y → q = pixel (n0 := 1) (n1 := 3) y →
      r = pixel (n0 := 1) (n1 := 3) y →
      min one (max zero (x p * f q + (one - f r))) = blend (n0 := 1) (n1 := 3) x f y := by
    rintro _ _ _ rfl rfl rfl; rfl
  exact at_positions _ _ _ e0 e1 e2

/-! ## Run t writes image t of the blended batch -/

/-- The printed index maps, decided over the 32 runs: the image window and the output window sit at block t of the
    leading axis and block 0 of the others; the factor window at block 0 of both its axes. -/
theorem where_blocks_sit : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- WHAT RUN `t` WRITES BACK is block `t` of the blend of the whole batch under the factor map, both as the region
    finds them. -/
theorem written_back (c : Dev nD) (t : Fin cfg0.N) :
    (dats m 0 c).flushed 2 t
      = ((cfg0.win 2).blk t).view.read (Elt Ideal) (blend (n0 := 32) (n1 := 3) (V m c main_arg0) (V m c main_v38)) := by
  rw [flushed2, body_is_blend]
  obtain ⟨a0, a1, a2, a3, f0, f1, o0, o1, o2, o3⟩ := where_blocks_sit t
  funext j
  show blendAt (V m c main_arg0 (((cfg0.win 0).blk t).view.emb j)) (V m c main_v38 (((cfg0.win 1).blk t).view.emb (ix2 (j 2) (j 3))))
     = blendAt (V m c main_arg0 (((cfg0.win 2).blk t).view.emb j))
         (V m c main_v38 (ix2 ((((cfg0.win 2).blk t).view.emb j) 2) ((((cfg0.win 2).blk t).view.emb j) 3)))
  have hj0 : (j 0).val < 1 := (j 0).isLt
  have hj1 : (j 1).val < 3 := (j 1).isLt
  have hj2 : (j 2).val < 512 := (j 2).isLt
  have hj3 : (j 3).val < 512 := (j 3).isLt
  have hx : ((cfg0.win 0).blk t).view.emb j = ((cfg0.win 2).blk t).view.emb j := by
    funext a; apply Fin.ext
    match a with
    | ⟨0, _⟩ => show win0_0.index t (0 : Fin 4) * 1 + 1 * (j 0).val = win0_2.index t (0 : Fin 4) * 1 + 1 * (j 0).val; omega
    | ⟨1, _⟩ => show win0_0.index t (1 : Fin 4) * 3 + 1 * (j 1).val = win0_2.index t (1 : Fin 4) * 3 + 1 * (j 1).val; omega
    | ⟨2, _⟩ => show win0_0.index t (2 : Fin 4) * 512 + 1 * (j 2).val = win0_2.index t (2 : Fin 4) * 512 + 1 * (j 2).val; omega
    | ⟨3, _⟩ => show win0_0.index t (3 : Fin 4) * 512 + 1 * (j 3).val = win0_2.index t (3 : Fin 4) * 512 + 1 * (j 3).val; omega
  have hf : ((cfg0.win 1).blk t).view.emb (ix2 (j 2) (j 3))
      = ix2 ((((cfg0.win 2).blk t).view.emb j) 2) ((((cfg0.win 2).blk t).view.emb j) 3) := by
    funext a; apply Fin.ext
    match a with
    | ⟨0, _⟩ => show win0_1.index t (0 : Fin 2) * 512 + 1 * (j 2).val = win0_2.index t (2 : Fin 4) * 512 + 1 * (j 2).val; omega
    | ⟨1, _⟩ => show win0_1.index t (1 : Fin 2) * 512 + 1 * (j 3).val = win0_2.index t (3 : Fin 4) * 512 + 1 * (j 3).val; omega
  rw [hx, hf]
  rfl

/-! ## The 32 images are the whole batch -/

/-- An entry of the batch is in run `t`'s output block iff each coordinate is in the block's range on its axis. -/
theorem in_block (t : Fin cfg0.N) (i : S32x3x512x512.Idx) :
    i ∈ ((cfg0.win 2).blk t).view.set ↔ ∀ a : Fin 4, win0_2.index t a * S1x3x512x512.size a ≤ (i a).val ∧ (i a).val < win0_2.index t a * S1x3x512x512.size a + S1x3x512x512.size a := by
  show i ∈ ((View.whole main_v39).slice (win0_2.rect t)).set ↔ _
  rw [View.set_slice_whole, Rect.mem_set_unit]
  exact Iff.rfl

/-- Every image of the batch is SOME run's. -/
theorem every_image : ∀ b : Fin 32, ∃ t : Fin cfg0.N, t.val = b.val :=
  (by decide +kernel : ∀ b : Fin 32, ∃ t : Fin grid0.N, t.val = b.val)

/-- Entry [b, c, h, w] lies in the block that run b writes back. -/
theorem batch_covered (i : S32x3x512x512.Idx) :
    ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 512 := (i 2).isLt
  have hi3 : (i 3).val < 512 := (i 3).isLt
  obtain ⟨t, ht⟩ := every_image ⟨(i 0).val, hi0⟩
  have ht' : t.val = (i 0).val := ht
  obtain ⟨-, -, -, -, -, -, o0, o1, o2, o3⟩ := where_blocks_sit t
  refine ⟨t, flush0_2 t, ?_⟩
  rw [in_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-! ## The result array, and the run -/

/-- THE RESULT ARRAY after the run: the blend of the batch under the factor map, both as the region finds them. -/
theorem result_is_blend (c : Dev nD) :
    (dats m 0 c).arrAt 2 cfg0.N = blend (n0 := 32) (n1 := 3) (V m c main_arg0) (V m c main_v38) :=
  (dats m 0 c).arrAt_eq_of_cover 2 _ (fun t _ => written_back m c t) batch_covered

/-- Every weakly fair execution of the program with the kernel terminates with its result at the blend of the
    images it was launched with under the factor map its region found, the five arguments unchanged. -/
theorem run : θ_run defs (onTc (τ := τ) (main (F := Ideal))) ⟨m, fun _ => 0, ρ⟩ fun r => ∀ c : Dev nD,
      r.2.mem ((c : Thread nD τ).loc main_v39)
        = blend (n0 := 32) (n1 := 3) (m ((c : Thread nD τ).loc main_arg0)) (V m c main_v38)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((result_is_blend m c).trans (by rw [V_main_arg0])), (h c).2⟩)
    (run_blocks m ρ)

end Cert.Streaks

end
-- ==== Proof.RefBlend.lean ====
/-
  The reference's result is the blend of the images under its factor map.

  After the factor map f the reference has ten more steps: it lifts f to the images' four axes by two
  broadcasts (a new pair of unit axes in front, then those stretched to 32 × 3), multiplies the images by it,
  does the same lifting to 1 − f (the 1 broadcast over the pixel grid first), adds, and clamps: the larger of
  0 and the sum, then the smaller of 1 and that. Read at an entry [b, c, h, w], each broadcast looks back at
  the pixel [h, w] and nothing else, so the entry is

      min 1 (max 0 (x[b, c, h, w] · f[h, w] + (1 − f[h, w]))),

  the blend of the specification, with f the reference's own stage.
-/
import proofs.«105950_j16106127360108_1_alg».proof.Proof.Gen.ReferenceIdeal.Read
import proofs.«105950_j16106127360108_1_alg».proof.Proof.Blend
import proofs.«105950_j16106127360108_1_alg».proof.Proof.Factor

noncomputable section

namespace Cert.Streaks

open Idealize.ShloMosaic Idealize.ShloMosaic.ValueIdx Idealize.ShloMosaic.TcCoe Idealize.SL.Sem
open Cert.ReferenceIdeal Cert.ReferenceIdeal.Read

/-- Through the two broadcasts that lift a map over the pixel grid to the images' axes, an entry of the batch
    looks back at its own pixel. -/
theorem lifted_pixel (i : S32x3x512x512.Idx) : idx_main_v39 (idx_main_v40 i) = pixel (n0 := 32) (n1 := 3) i :=
  funext fun a => Fin.ext (by match a with | ⟨0, _⟩ => rfl | ⟨1, _⟩ => rfl)

theorem lifted_pixel' (i : S32x3x512x512.Idx) : idx_main_v44 (idx_main_v45 i) = pixel (n0 := 32) (n1 := 3) i :=
  funext fun a => Fin.ext (by match a with | ⟨0, _⟩ => rfl | ⟨1, _⟩ => rfl)

/-- The reference's result, as a function of its five arguments, is the blend of the images under the factor map
    of the other four. -/
theorem reference_is_blend (x : S32x3x512x512.Idx → EReal) (a : S1.Idx → EReal) (xc y0 y1off : S40.Idx → BitVec 32) :
    val_main_v47 (F := Ideal) x a xc y0 y1off = blend (n0 := 32) (n1 := 3) x (factor a xc y0 y1off) := by
  funext i
  rw [val_main_v47_apply, val_main_call0_v4_apply, val_main_call0_v3_apply, val_main_cst_5_apply,
    val_main_call0_v2_apply, val_main_call0_v1_apply, val_main_call0_v0_apply, val_main_cst_4_apply,
    val_main_v46_apply, val_main_v41_apply, val_main_v40_apply, val_main_v39_apply,
    val_main_v45_apply, val_main_v44_apply, val_main_v43_apply, val_main_v42_apply, val_main_cst_3_apply,
    lifted_pixel, lifted_pixel']
  rfl

end Cert.Streaks

end
-- ==== Proof.lean ====
/-
  Rain streaks: a kernel that blends forty streaks into a batch of images, against its reference in plain array
  operations.

  Both programs take a batch x of 32 three-channel 512 × 512 images, one opacity a, and three tables of forty
  integers that place the streaks (a column, a top row, a bottom row's offset). Both first count, for every
  pixel, how many streaks cover it — K[h, w], a product of a row mask and a column mask summed over the streaks —
  and raise 1 − a to that count: the factor map f = (1 − a)^K. Both then return, entry by entry,

      min 1 (max 0 (x[b, c, h, w] · f[h, w] + (1 − f[h, w]))).

  The reference does all of it in host operations. The other program does the counting and the power in host
  operations too — the same operations, in the same order — and hands x and f to a kernel that runs once per
  image and computes the displayed expression on that image.

  So the two results are one function of the arguments, and seeing it needs no arithmetic at all: not even the
  inputs' finiteness. What is to be seen is that the same entries are read:
    * Proof/Blend.lean states the displayed function (`blend`), for a batch and for one image;
    * Proof/Factor.lean: the array the kernel's region finds as its second operand is the reference's factor map
      of the same arguments;
    * Proof/KernelBlend.lean: the kernel's result array is `blend` of the images and the factor map it found —
      each of the 32 runs writes back one image of it, and the 32 images are the batch;
    * Proof/RefBlend.lean: the reference's last stage is `blend` of the images and its factor map.
  The three frames are the generated ones (the reference's is its generated run with the result dropped), and the
  idealization rewrote nothing, so there is nothing to preserve.
-/
import proofs.«105950_j16106127360108_1_alg».proof.Defs
import proofs.«105950_j16106127360108_1_alg».proof.Proof.Gen.Kernel
import proofs.«105950_j16106127360108_1_alg».proof.Proof.Gen.Kernel.Frame
import proofs.«105950_j16106127360108_1_alg».proof.Proof.Gen.KernelIdeal
import proofs.«105950_j16106127360108_1_alg».proof.Proof.Gen.KernelIdeal.Frame
import proofs.«105950_j16106127360108_1_alg».proof.Proof.Gen.KernelIdeal.Value
import proofs.«105950_j16106127360108_1_alg».proof.Proof.Gen.ReferenceIdeal
import proofs.«105950_j16106127360108_1_alg».proof.Proof.Gen.ReferenceIdeal.Run
import proofs.«105950_j16106127360108_1_alg».proof.Proof.Gen.ReferenceIdeal.Read
import proofs.«105950_j16106127360108_1_alg».proof.Proof.Gen.Pre_finite_inputs
import proofs.«105950_j16106127360108_1_alg».proof.Proof.Blend
import proofs.«105950_j16106127360108_1_alg».proof.Proof.Factor
import proofs.«105950_j16106127360108_1_alg».proof.Proof.KernelBlend
import proofs.«105950_j16106127360108_1_alg».proof.Proof.RefBlend
import Idealize.ShloMosaic.Adequacy
import Idealize.ShloMosaic.Init

noncomputable section

namespace Cert.Proof

open Idealize.ShloMosaic Idealize.ShloMosaic.TcCoe Idealize.SL.Sem

/-- The program with the kernel ends with its result at the blend of the images under the REFERENCE's factor map
    of the opacity and the streak tables it was launched with: the kernel's run, with the array its region found
    named as that map. -/
theorem kernel_run (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) (Cert.KernelIdeal.main (F := Ideal))) ⟨m, fun _ => 0, ρ⟩ fun r =>
      ∀ c : Dev Cert.KernelIdeal.nD,
        r.2.mem ((c : Thread Cert.KernelIdeal.nD Cert.KernelIdeal.τ).loc Cert.KernelIdeal.main_v39)
          = Cert.Streaks.blend (n0 := 32) (n1 := 3) (m ((c : Thread Cert.KernelIdeal.nD Cert.KernelIdeal.τ).loc Cert.KernelIdeal.main_arg0))
              (Cert.Streaks.factor (m ((c : Thread Cert.KernelIdeal.nD Cert.KernelIdeal.τ).loc Cert.KernelIdeal.main_arg1))
                (m ((c : Thread Cert.KernelIdeal.nD Cert.KernelIdeal.τ).loc Cert.KernelIdeal.main_arg2))
                (m ((c : Thread Cert.KernelIdeal.nD Cert.KernelIdeal.τ).loc Cert.KernelIdeal.main_arg3))
                (m ((c : Thread Cert.KernelIdeal.nD Cert.KernelIdeal.τ).loc Cert.KernelIdeal.main_arg4)))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4) :=
  (θ_run Cert.KernelIdeal.defs _ _).mono
    (fun r h c => ⟨(h c).1.trans (congrArg (Cert.Streaks.blend (n0 := 32) (n1 := 3) _) (Cert.Streaks.factor_found m c)), (h c).2⟩)
    (Cert.Streaks.run m ρ)

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments both programs end at the blend of the images under the factor
    map of the other four: the kernel's by `kernel_run`, the reference's by its generated run, whose term is its
    last stage, which is that blend; the agreement turns the reference's arguments into the kernel's. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.Streaks.reference_is_blend,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
